-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512x64 : Shape := ⟨4, ![8, 512, 512, 64]⟩
abbrev S_ : Shape := ⟨0, ![]⟩

class Facts : Prop where
  bcast_S_S8x512x512x64 : S_.BroadcastsInDim S8x512x512x64 (![] : Fin 0 → Fin S8x512x512x64.rank)
  reducesTo_S8x512x512x64_S_d0_1_2_3 : S8x512x512x64.ReducesTo [0, 1, 2, 3] S_
  h_S_ : 0 < S_.numel

variable [Facts]

def fn {F : FTy → Type} [FloatOps F] (main_arg0 : FVec F S8x512x512x64 .f32) : IVec S_ 1 :=
  let main_v0 : FVec F S8x512x512x64 .f32 := Host.absf main_arg0
  let main_cst : FVec F S_ .f32 := constant S_ .f32 0x7F800000#32
  let main_v1 : FVec F S8x512x512x64 .f32 := broadcastInDim S8x512x512x64 ![] bcast_S_S8x512x512x64 main_cst
  let main_v2 : IVec S8x512x512x64 1 := cmpf .olt main_v0 main_v1
  let main_c : IVec S_ 1 := constantI S_ 1 1#1
  let main_v3 : IVec S_ 1 := (fun x v => Host.reduce IntOp.andi x v reducesTo_S8x512x512x64_S_d0_1_2_3 h_S_) main_v2 main_c
  main_v3
-- ==== Kernel.lean ====
abbrev S8x512x512x64 : Shape := ⟨4, ![8, 512, 512, 64]⟩
abbrev S8x256x256x256 : Shape := ⟨4, ![8, 256, 256, 256]⟩
abbrev S1x64x128x64 : Shape := ⟨4, ![1, 64, 128, 64]⟩
abbrev S1x32x64x256 : Shape := ⟨4, ![1, 32, 64, 256]⟩
abbrev S1x32x2x64x2x64 : Shape := ⟨6, ![1, 32, 2, 64, 2, 64]⟩
abbrev S1x32x1x64x1x64 : Shape := ⟨6, ![1, 32, 1, 64, 1, 64]⟩
abbrev S1x32x64x64 : Shape := ⟨4, ![1, 32, 64, 64]⟩
abbrev S1x32x64x64x1 : Shape := ⟨5, ![1, 32, 64, 64, 1]⟩
abbrev S1x32x64x64x4 : Shape := ⟨5, ![1, 32, 64, 64, 4]⟩

abbrev nBuf : Space → Nat
  | .hbm => 2
  | .vmem => 4
  | .smem => 0
  | _ => 0

abbrev bufTy : (tb : Table) → Fin (tcTables nBuf tb) → BufTy
  | .hbm, ⟨0, _⟩ => ⟨S8x512x512x64, .f32⟩
  | .hbm, ⟨1, _⟩ => ⟨S8x256x256x256, .f32⟩
  | .local _ .vmem, ⟨0, _⟩ => ⟨S1x64x128x64, .f32⟩
  | .local _ .vmem, ⟨1, _⟩ => ⟨S1x64x128x64, .f32⟩
  | .local _ .vmem, ⟨2, _⟩ => ⟨S1x32x64x256, .f32⟩
  | .local _ .vmem, ⟨3, _⟩ => ⟨S1x32x64x256, .f32⟩
  | _, _ => ⟨S8x512x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

class Facts₀ : Prop where
  inb_S1x64x128x64_S1x64x128x64_0_0_0_0 : ∀ a, (![0, 0, 0, 0] : Fin 4 → Nat) a + S1x64x128x64.size a ≤ S1x64x128x64.size a
  h_S1x64x128x64 : 0 < S1x64x128x64.numel
  shapeCasts_S1x64x128x64_S1x32x2x64x2x64 : S1x64x128x64.ShapeCasts S1x32x2x64x2x64
  slices_S1x32x2x64x2x64_o0_0_0_0_0_0_S1x32x1x64x1x64 : S1x32x2x64x2x64.Slices ![0, 0, 0, 0, 0, 0] S1x32x1x64x1x64
  shapeCasts_S1x32x1x64x1x64_S1x32x64x64 : S1x32x1x64x1x64.ShapeCasts S1x32x64x64
  slices_S1x32x2x64x2x64_o0_0_0_0_1_0_S1x32x1x64x1x64 : S1x32x2x64x2x64.Slices ![0, 0, 0, 0, 1, 0] S1x32x1x64x1x64
  slices_S1x32x2x64x2x64_o0_0_1_0_0_0_S1x32x1x64x1x64 : S1x32x2x64x2x64.Slices ![0, 0, 1, 0, 0, 0] S1x32x1x64x1x64
  slices_S1x32x2x64x2x64_o0_0_1_0_1_0_S1x32x1x64x1x64 : S1x32x2x64x2x64.Slices ![0, 0, 1, 0, 1, 0] S1x32x1x64x1x64
  shapeCasts_S1x32x64x64_S1x32x64x64x1 : S1x32x64x64.ShapeCasts S1x32x64x64x1
  concatenates_S1x32x64x64x1_S1x32x64x64x1_S1x32x64x64x1_S1x32x64x64x1_S1x32x64x64x4_d4 : Shape.Concatenates [S1x32x64x64x1, S1x32x64x64x1, S1x32x64x64x1, S1x32x64x64x1] S1x32x64x64x4 4
  shapeCasts_S1x32x64x64x4_S1x32x64x256 : S1x32x64x64x4.ShapeCasts S1x32x64x256
  inb_S1x32x64x256_S1x32x64x256_0_0_0_0 : ∀ a, (![0, 0, 0, 0] : Fin 4 → Nat) a + S1x32x64x256.size a ≤ S1x32x64x256.size a
  h_S1x32x64x256 : 0 < S1x32x64x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x64.size a ≤ S8x512x512x64.size a
  hwx0_0 : ∀ i : grid0.Coords, EltTy.bits .f32 = 32 ∨ (Rect.block (s := S8x512x512x64) S1x64x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x64x256.size a ≤ S8x256x256x256.size a
  hwx0_1 : ∀ i : grid0.Coords, EltTy.bits .f32 = 32 ∨ (Rect.block (s := S8x256x256x256) S1x32x64x256.size (cc0_transform_1 i) (hinb0_1 i)).WholeWords (EltTy.packing .f32)

variable [Facts₀]

abbrev win0_0 : Pipeline.Window sig grid0 :=
  Pipeline.Window.ofSpec (Memref.whole main_arg0) S1x64x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x64x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x512x512x64 : Shape := ⟨4, ![8, 512, 512, 64]⟩
abbrev S8x256x2x256x2x64 : Shape := ⟨6, ![8, 256, 2, 256, 2, 64]⟩
abbrev S8x256x1x256x1x64 : Shape := ⟨6, ![8, 256, 1, 256, 1, 64]⟩
abbrev S8x256x256x64 : Shape := ⟨4, ![8, 256, 256, 64]⟩
abbrev S_ : Shape := ⟨0, ![]⟩
abbrev S8x256x256x64x1 : Shape := ⟨5, ![8, 256, 256, 64, 1]⟩
abbrev S8x256x256x64x4 : Shape := ⟨5, ![8, 256, 256, 64, 4]⟩
abbrev S8x256x256x256 : Shape := ⟨4, ![8, 256, 256, 256]⟩

abbrev nBuf : Space → Nat
  | .hbm => 40
  | .vmem => 0
  | .smem => 0
  | _ => 0

abbrev bufTy : (tb : Table) → Fin (tcTables nBuf tb) → BufTy
  | .hbm, ⟨0, _⟩ => ⟨S8x512x512x64, .f32⟩
  | .hbm, ⟨1, _⟩ => ⟨S8x256x2x256x2x64, .f32⟩
  | .hbm, ⟨2, _⟩ => ⟨S8x256x1x256x1x64, .f32⟩
  | .hbm, ⟨3, _⟩ => ⟨S8x256x256x64, .f32⟩
  | .hbm, ⟨4, _⟩ => ⟨S8x256x1x256x1x64, .f32⟩
  | .hbm, ⟨5, _⟩ => ⟨S8x256x256x64, .f32⟩
  | .hbm, ⟨6, _⟩ => ⟨S8x256x1x256x1x64, .f32⟩
  | .hbm, ⟨7, _⟩ => ⟨S8x256x256x64, .f32⟩
  | .hbm, ⟨8, _⟩ => ⟨S8x256x1x256x1x64, .f32⟩
  | .hbm, ⟨9, _⟩ => ⟨S8x256x256x64, .f32⟩
  | .hbm, ⟨10, _⟩ => ⟨S8x256x256x64, .f32⟩
  | .hbm, ⟨11, _⟩ => ⟨S8x256x256x64, .f32⟩
  | .hbm, ⟨12, _⟩ => ⟨S8x256x256x64, .f32⟩
  | .hbm, ⟨13, _⟩ => ⟨S_, .f32⟩
  | .hbm, ⟨14, _⟩ => ⟨S8x256x256x64, .f32⟩
  | .hbm, ⟨15, _⟩ => ⟨S8x256x256x64, .f32⟩
  | .hbm, ⟨16, _⟩ => ⟨S8x256x256x64, .f32⟩
  | .hbm, ⟨17, _⟩ => ⟨S8x256x256x64, .f32⟩
  | .hbm, ⟨18, _⟩ => ⟨S8x256x256x64, .f32⟩
  | .hbm, ⟨19, _⟩ => ⟨S_, .f32⟩
  | .hbm, ⟨20, _⟩ => ⟨S8x256x256x64, .f32⟩
  | .hbm, ⟨21, _⟩ => ⟨S8x256x256x64, .f32⟩
  | .hbm, ⟨22, _⟩ => ⟨S8x256x256x64, .f32⟩
  | .hbm, ⟨23, _⟩ => ⟨S8x256x256x64, .f32⟩
  | .hbm, ⟨24, _⟩ => ⟨S8x256x256x64, .f32⟩
  | .hbm, ⟨25, _⟩ => ⟨S_, .f32⟩
  | .hbm, ⟨26, _⟩ => ⟨S8x256x256x64, .f32⟩
  | .hbm, ⟨27, _⟩ => ⟨S8x256x256x64, .f32⟩
  | .hbm, ⟨28, _⟩ => ⟨S8x256x256x64, .f32⟩
  | .hbm, ⟨29, _⟩ => ⟨S8x256x256x64, .f32⟩
  | .hbm, ⟨30, _⟩ => ⟨S8x256x256x64, .f32⟩
  | .hbm, ⟨31, _⟩ => ⟨S_, .f32⟩
  | .hbm, ⟨32, _⟩ => ⟨S8x256x256x64, .f32⟩
  | .hbm, ⟨33, _⟩ => ⟨S8x256x256x64, .f32⟩
  | .hbm, ⟨34, _⟩ => ⟨S8x256x256x64x1, .f32⟩
  | .hbm, ⟨35, _⟩ => ⟨S8x256x256x64x1, .f32⟩
  | .hbm, ⟨36, _⟩ => ⟨S8x256x256x64x1, .f32⟩
  | .hbm, ⟨37, _⟩ => ⟨S8x256x256x64x1, .f32⟩
  | .hbm, ⟨38, _⟩ => ⟨S8x256x256x64x4, .f32⟩
  | .hbm, ⟨39, _⟩ => ⟨S8x256x256x256, .f32⟩
  | _, _ => ⟨S8x512x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_2 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩

abbrev nD : Nat := 1
abbrev τ : Topo := Topo.v7x

variable {F : FTy → Type} [FloatOps F]

class Facts₀ : Prop where
  shapeCasts_S8x512x512x64_S8x256x2x256x2x64 : S8x512x512x64.ShapeCasts S8x256x2x256x2x64
  slices_S8x256x2x256x2x64_S8x256x1x256x1x64_0_0_0_0_0_0 : S8x256x2x256x2x64.Slices ![0, 0, 0, 0, 0, 0] S8x256x1x256x1x64
  shapeCasts_S8x256x1x256x1x64_S8x256x256x64 : S8x256x1x256x1x64.ShapeCasts S8x256x256x64
  slices_S8x256x2x256x2x64_S8x256x1x256x1x64_0_0_0_0_1_0 : S8x256x2x256x2x64.Slices ![0, 0, 0, 0, 1, 0] S8x256x1x256x1x64
  slices_S8x256x2x256x2x64_S8x256x1x256x1x64_0_0_1_0_0_0 : S8x256x2x256x2x64.Slices ![0, 0, 1, 0, 0, 0] S8x256x1x256x1x64
  slices_S8x256x2x256x2x64_S8x256x1x256x1x64_0_0_1_0_1_0 : S8x256x2x256x2x64.Slices ![0, 0, 1, 0, 1, 0] S8x256x1x256x1x64
  bcast_S_S8x256x256x64 : S_.BroadcastsInDim S8x256x256x64 (![] : Fin 0 → Fin S8x256x256x64.rank)
  bcast_S8x256x256x64_S8x256x256x64x1_0_1_2_3 : S8x256x256x64.BroadcastsInDim S8x256x256x64x1 (![0, 1, 2, 3] : Fin 4 → Fin S8x256x256x64x1.rank)
  concatenates_S8x256x256x64x1_S8x256x256x64x1_S8x256x256x64x1_S8x256x256x64x1_S8x256x256x64x4_d4 : Shape.Concatenates [S8x256x256x64x1, S8x256x256x64x1, S8x256x256x64x1, S8x256x256x64x1] S8x256x256x64x4 4
  shapeCasts_S8x256x256x64x4_S8x256x256x256 : S8x256x256x64x4.ShapeCasts S8x256x256x256

variable [Facts₀]

class Facts : Prop extends Facts₀ where

variable [Facts]
-- ==== Proof.LibPatchLayout.lean ====
/-
  Reading 2×2 patches of a channels-last array through layout operations, at an index, for any extents.

  An array [N, 2H, 2W, C] is cut into non-overlapping 2×2 patches of rows and columns by viewing it as
  [N, H, 2, W, 2, C]; corner (r, s) of every patch is the unit slice at offset r on the first axis of extent 2 and
  s on the second, viewed again as [N, H, W, C]. Values computed per patch are laid side by side in the channels by
  giving each a trailing unit axis, joining them along it, and merging [N, H, W, C, 4] into [N, H, W, 4C].
  None of these operations moves a value; each lemma here says which entry of the operand an entry of the result is:

    corner_apply      the corner array at (n, i, j, c) is the array at (n, 2i + r, 2j + s, c);
    addUnit_apply     a trailing unit axis added by a reshape: the same entry;
    bcastUnit_apply   a trailing unit axis added by a broadcast along the leading axes: the same entry;
    cat4_apply        four such arrays joined along the unit axis: entry k on it is array k's entry;
    interleave_apply  the merged array at channel q is the joined array at (q / 4, q % 4).

  The extents N, H, W, C are variables and the doubled and quadrupled extents come with their equations
  (H2 = 2 H, W2 = 2 W, C4 = 4 C), so that at literal shapes the statements match the shapes as written. The shape
  relations each operation asks for are hypotheses, to be filled by whatever states them.
-/
import Idealize.ShloMosaic.PureOps
import Idealize.ShloMosaic.Lib.Pipeline.Value
import Idealize.ShloMosaic.Lib.ValueIdx
import Idealize.ShloMosaic.Lib.ValueIdxRank6
import Mathlib.Tactic.Ring

namespace Cert.PatchLayout

open Idealize.ShloMosaic Idealize.ShloMosaic.ValueIdx

/-- Position 2 i + r on an axis of even extent 2 H: row r of patch i. -/
def twice {H H2 : Nat} (hH : H2 = 2 * H) (r : Fin 2) (i : Fin H) : Fin H2 :=
  ⟨2 * i.val + r.val, by have := i.isLt; have := r.isLt; omega⟩

/-- One of four things, by number. -/
def pick4 {β : Type} (k : Fin 4) (p0 p1 p2 p3 : β) : β :=
  match k with
  | 0 => p0
  | 1 => p1
  | 2 => p2
  | 3 => p3

section Layout

variable {α : Type} {N H W C H2 W2 C4 : Nat}

/-- Corner (r, s) of every patch: the array seen as [N, H, 2, W, 2, C], cut at offset r on the first axis of
    extent 2 and s on the second, the two unit axes dropped. At (n, i, j, c) it is x[n, 2i + r, 2j + s, c]. -/
theorem corner_apply (hH : H2 = 2 * H) (hW : W2 = 2 * W)
    (x : (⟨4, ![N, H2, W2, C]⟩ : Shape).Idx → α) (off : Fin 6 → Nat) (r s : Fin 2)
    (h0 : off 0 = 0) (h1 : off 1 = 0) (h2 : off 2 = r.val) (h3 : off 3 = 0) (h4 : off 4 = s.val) (h5 : off 5 = 0)
    (hc1 : (⟨4, ![N, H2, W2, C]⟩ : Shape).ShapeCasts ⟨6, ![N, H, 2, W, 2, C]⟩)
    (hs : (⟨6, ![N, H, 2, W, 2, C]⟩ : Shape).Slices off ⟨6, ![N, H, 1, W, 1, C]⟩)
    (hc2 : (⟨6, ![N, H, 1, W, 1, C]⟩ : Shape).ShapeCasts ⟨4, ![N, H, W, C]⟩)
    (n : Fin N) (i : Fin H) (j : Fin W) (c : Fin C) :
    shapeCast ⟨4, ![N, H, W, C]⟩
        (extractStridedSlice ⟨6, ![N, H, 1, W, 1, C]⟩ off (shapeCast ⟨6, ![N, H, 2, W, 2, C]⟩ x hc1) hs) hc2 (ix4 n i j c)
      = x (ix4 n (twice hH r i) (twice hW s j) c) := by
  subst hH hW
  -- dropping the unit axes keeps the row-major position
  refine (shapeCast_apply _ hc2 (ix4 n i j c) (ix6 n i (0 : Fin 1) j (0 : Fin 1) c) ?_).trans ?_
  · rw [Shape.rowMajor_val_six, Shape.rowMajor_val_four]
    show ((((n.val * H + i.val) * 1 + 0) * W + j.val) * 1 + 0) * C + c.val = ((n.val * H + i.val) * W + j.val) * C + c.val
    ring
  -- the slice shifts the two unit coordinates to (r, s)
  refine (extractStridedSlice_apply off _ hs (ix6 n i (0 : Fin 1) j (0 : Fin 1) c) (ix6 n i r j s c) ?_).trans ?_
  · intro a
    match a with
    | ⟨0, _⟩ => show n.val = off 0 + n.val; omega
    | ⟨1, _⟩ => show i.val = off 1 + i.val; omega
    | ⟨2, _⟩ => show r.val = off 2 + 0; omega
    | ⟨3, _⟩ => show j.val = off 3 + j.val; omega
    | ⟨4, _⟩ => show s.val = off 4 + 0; omega
    | ⟨5, _⟩ => show c.val = off 5 + c.val; omega
  -- splitting an axis of extent 2H into (H, 2) keeps the row-major position: 2 i + r ↔ (i, r)
  refine shapeCast_apply x hc1 (ix6 n i r j s c) (ix4 n (twice rfl r i) (twice rfl s j) c) ?_
  rw [Shape.rowMajor_val_four, Shape.rowMajor_val_six]
  show ((n.val * (2 * H) + (2 * i.val + r.val)) * (2 * W) + (2 * j.val + s.val)) * C + c.val
    = ((((n.val * H + i.val) * 2 + r.val) * W + j.val) * 2 + s.val) * C + c.val
  ring

/-- A trailing unit axis added by a reshape: the same entry. -/
theorem addUnit_apply (y : (⟨4, ![N, H, W, C]⟩ : Shape).Idx → α)
    (hc : (⟨4, ![N, H, W, C]⟩ : Shape).ShapeCasts ⟨5, ![N, H, W, C, 1]⟩)
    (n : Fin N) (i : Fin H) (j : Fin W) (c : Fin C) (u : Fin 1) :
    shapeCast ⟨5, ![N, H, W, C, 1]⟩ y hc (ix5 n i j c u) = y (ix4 n i j c) := by
  refine shapeCast_apply y hc (ix5 n i j c u) (ix4 n i j c) ?_
  rw [Shape.rowMajor_val_four, Shape.rowMajor_val_five]
  have hu : u.val < 1 := u.isLt
  show ((n.val * H + i.val) * W + j.val) * C + c.val = (((n.val * H + i.val) * W + j.val) * C + c.val) * 1 + u.val
  have : u.val = 0 := by omega
  rw [this]; ring

/-- A trailing unit axis added by a broadcast along the four leading axes: the same entry. -/
theorem bcastUnit_apply (y : (⟨4, ![N, H, W, C]⟩ : Shape).Idx → α)
    (hb : (⟨4, ![N, H, W, C]⟩ : Shape).BroadcastsInDim ⟨5, ![N, H, W, C, 1]⟩ (![0, 1, 2, 3] : Fin 4 → Fin 5))
    (n : Fin N) (i : Fin H) (j : Fin W) (c : Fin C) (u : Fin 1) :
    broadcastInDim ⟨5, ![N, H, W, C, 1]⟩ (![0, 1, 2, 3] : Fin 4 → Fin 5) hb y (ix5 n i j c u) = y (ix4 n i j c) := by
  refine broadcastInDim_apply _ hb y (ix5 n i j c u) (ix4 n i j c) ?_
  intro a
  match a with
  | ⟨0, _⟩ =>
    show n.val = if N = 1 then 0 else n.val
    split_ifs with h
    · have := n.isLt; omega
    · rfl
  | ⟨1, _⟩ =>
    show i.val = if H = 1 then 0 else i.val
    split_ifs with h
    · have := i.isLt; omega
    · rfl
  | ⟨2, _⟩ =>
    show j.val = if W = 1 then 0 else j.val
    split_ifs with h
    · have := j.isLt; omega
    · rfl
  | ⟨3, _⟩ =>
    show c.val = if C = 1 then 0 else c.val
    split_ifs with h
    · have := c.isLt; omega
    · rfl

/-- Four arrays with a trailing unit axis joined along it: entry k on that axis is piece k's entry. -/
theorem cat4_apply (p0 p1 p2 p3 : (⟨5, ![N, H, W, C, 1]⟩ : Shape).Idx → α)
    (h : Shape.Concatenates [(⟨5, ![N, H, W, C, 1]⟩ : Shape), ⟨5, ![N, H, W, C, 1]⟩, ⟨5, ![N, H, W, C, 1]⟩, ⟨5, ![N, H, W, C, 1]⟩]
      ⟨5, ![N, H, W, C, 4]⟩ 4)
    (n : Fin N) (i : Fin H) (j : Fin W) (c : Fin C) (k : Fin 4) :
    concatenate ⟨5, ![N, H, W, C, 4]⟩ 4
        [⟨⟨5, ![N, H, W, C, 1]⟩, p0⟩, ⟨⟨5, ![N, H, W, C, 1]⟩, p1⟩, ⟨⟨5, ![N, H, W, C, 1]⟩, p2⟩, ⟨⟨5, ![N, H, W, C, 1]⟩, p3⟩] h
        (ix5 n i j c k)
      = pick4 k p0 p1 p2 p3 (ix5 n i j c (0 : Fin 1)) := by
  exact concatenate_ofFn_unit_apply (t := ⟨5, ![N, H, W, C, 4]⟩) (s₁ := ⟨5, ![N, H, W, C, 1]⟩) 4
    (fun m : Fin 4 => pick4 m p0 p1 p2 p3) h rfl rfl (ix5 n i j c k) k rfl (ix5 n i j c (0 : Fin 1))
    (fun b hb => match b with
      | ⟨0, _⟩ => rfl
      | ⟨1, _⟩ => rfl
      | ⟨2, _⟩ => rfl
      | ⟨3, _⟩ => rfl
      | ⟨4, _⟩ => absurd rfl hb)

/-- Merging (C, 4) into one axis of extent 4C keeps the row-major position: channel q ↔ (q / 4, q % 4). -/
theorem interleave_apply (hC : C4 = C * 4) (z : (⟨5, ![N, H, W, C, 4]⟩ : Shape).Idx → α)
    (hc : (⟨5, ![N, H, W, C, 4]⟩ : Shape).ShapeCasts ⟨4, ![N, H, W, C4]⟩)
    (n : Fin N) (i : Fin H) (j : Fin W) (q : Fin C4) :
    shapeCast ⟨4, ![N, H, W, C4]⟩ z hc (ix4 n i j q)
      = z (ix5 n i j ⟨q.val / 4, by have := q.isLt; omega⟩ ⟨q.val % 4, Nat.mod_lt _ (by decide)⟩) := by
  subst hC
  refine shapeCast_apply z hc (ix4 n i j q) _ ?_
  rw [Shape.rowMajor_val_five, Shape.rowMajor_val_four]
  show (((n.val * H + i.val) * W + j.val) * C + q.val / 4) * 4 + q.val % 4 = ((n.val * H + i.val) * W + j.val) * (C * 4) + q.val
  obtain ⟨a, b, ha, hb, hq⟩ : ∃ a b, q.val / 4 = a ∧ q.val % 4 = b ∧ q.val = 4 * a + b :=
    ⟨_, _, rfl, rfl, (Nat.div_add_mod _ 4).symm⟩
  rw [ha, hb, hq]; ring

end Layout

end Cert.PatchLayout
-- ==== Proof.Haar.lean ====
/-
  The 2×2 Haar analysis step over an array [N, 2H, 2W, C], channels last.

  Every non-overlapping 2×2 patch of rows and columns

      a = x[n, 2i, 2j, c]      b = x[n, 2i, 2j+1, c]
      c' = x[n, 2i+1, 2j, c]   d = x[n, 2i+1, 2j+1, c]

  gives four numbers, h·(((a + b) + c') + d), h·(((a + b) − c') − d), h·(((a − b) + c') − d),
  h·(((a − b) − c') + d), which land in the output [N, H, W, 4C] at channels 4c, 4c+1, 4c+2, 4c+3.

  A program computes this by LAYOUT operations around pointwise arithmetic: the array is reshaped to
  [N, H, 2, W, 2, C], the four corners are the unit slices at offsets (r, s) on the two axes of extent 2,
  each reshaped back to [N, H, W, C]; the four combinations get a trailing unit axis, are concatenated
  along it, and the result [N, H, W, C, 4] is reshaped to [N, H, W, 4C]. Each layout operation moves
  no value: read at an index it is its operand at the index with the same row-major position (a reshape),
  the index shifted by the offsets (a slice), or the piece the joined axis names (a concatenation).
  This file reads that chain at an index, for any extents, so that the same statement serves a whole
  array and one tile of it (the layout operations one by one are in Proof/LibPatchLayout.lean). No law of arithmetic is used: the combinations are kept as written.
-/
import proofs.«150662_j33887291965641_1_alg».proof.Proof.LibPatchLayout

noncomputable section

namespace Cert.Haar

open Idealize.ShloMosaic Idealize.ShloMosaic.ValueIdx Cert.PatchLayout

section Value

variable {F : FTy → Type} [FloatOps F] {N H W C H2 W2 C4 : Nat}

/-- The four combinations of one patch (a b; c d), scaled by h, associated as written. -/
def comb (h a b c d : F .f32) (k : Fin 4) : F .f32 :=
  pick4 k
    (FloatOps.mulf h (FloatOps.addf (FloatOps.addf (FloatOps.addf a b) c) d))
    (FloatOps.mulf h (FloatOps.subf (FloatOps.subf (FloatOps.addf a b) c) d))
    (FloatOps.mulf h (FloatOps.subf (FloatOps.addf (FloatOps.subf a b) c) d))
    (FloatOps.mulf h (FloatOps.addf (FloatOps.subf (FloatOps.subf a b) c) d))

/-- The transform at output position (n, i, j) and output channel q: combination q % 4 of input channel q / 4's patch. -/
def haarAt (hH : H2 = 2 * H) (hW : W2 = 2 * W) (hC : C4 = C * 4) (h : F .f32)
    (x : (⟨4, ![N, H2, W2, C]⟩ : Shape).Idx → F .f32) (n : Fin N) (i : Fin H) (j : Fin W) (q : Fin C4) : F .f32 :=
  comb h
    (x (ix4 n (twice hH 0 i) (twice hW 0 j) ⟨q.val / 4, by have := q.isLt; omega⟩))
    (x (ix4 n (twice hH 0 i) (twice hW 1 j) ⟨q.val / 4, by have := q.isLt; omega⟩))
    (x (ix4 n (twice hH 1 i) (twice hW 0 j) ⟨q.val / 4, by have := q.isLt; omega⟩))
    (x (ix4 n (twice hH 1 i) (twice hW 1 j) ⟨q.val / 4, by have := q.isLt; omega⟩))
    ⟨q.val % 4, Nat.mod_lt _ (by decide)⟩

/-- The whole output array: the transform at every output index. -/
def haar (hH : H2 = 2 * H) (hW : W2 = 2 * W) (hC : C4 = C * 4) (h : F .f32)
    (x : FVec F ⟨4, ![N, H2, W2, C]⟩ .f32) : FVec F ⟨4, ![N, H, W, C4]⟩ .f32 :=
  fun o => haarAt hH hW hC h x (o 0) (o 1) (o 2) (o 3)

/-- The transform as a program spells it: reshape, four corner slices, the four combinations against a vector hv that
    holds the scale everywhere, a trailing unit axis added by up, the concatenation, the merging reshape. -/
def haarProg
    (hc1 : (⟨4, ![N, H2, W2, C]⟩ : Shape).ShapeCasts ⟨6, ![N, H, 2, W, 2, C]⟩)
    (hs00 : (⟨6, ![N, H, 2, W, 2, C]⟩ : Shape).Slices ![0, 0, 0, 0, 0, 0] ⟨6, ![N, H, 1, W, 1, C]⟩)
    (hs01 : (⟨6, ![N, H, 2, W, 2, C]⟩ : Shape).Slices ![0, 0, 0, 0, 1, 0] ⟨6, ![N, H, 1, W, 1, C]⟩)
    (hs10 : (⟨6, ![N, H, 2, W, 2, C]⟩ : Shape).Slices ![0, 0, 1, 0, 0, 0] ⟨6, ![N, H, 1, W, 1, C]⟩)
    (hs11 : (⟨6, ![N, H, 2, W, 2, C]⟩ : Shape).Slices ![0, 0, 1, 0, 1, 0] ⟨6, ![N, H, 1, W, 1, C]⟩)
    (hc2 : (⟨6, ![N, H, 1, W, 1, C]⟩ : Shape).ShapeCasts ⟨4, ![N, H, W, C]⟩)
    (hcat : Shape.Concatenates [(⟨5, ![N, H, W, C, 1]⟩ : Shape), ⟨5, ![N, H, W, C, 1]⟩, ⟨5, ![N, H, W, C, 1]⟩, ⟨5, ![N, H, W, C, 1]⟩]
      ⟨5, ![N, H, W, C, 4]⟩ 4)
    (hc3 : (⟨5, ![N, H, W, C, 4]⟩ : Shape).ShapeCasts ⟨4, ![N, H, W, C4]⟩)
    (hv : FVec F ⟨4, ![N, H, W, C]⟩ .f32)
    (up : FVec F ⟨4, ![N, H, W, C]⟩ .f32 → FVec F ⟨5, ![N, H, W, C, 1]⟩ .f32)
    (x : FVec F ⟨4, ![N, H2, W2, C]⟩ .f32) : FVec F ⟨4, ![N, H, W, C4]⟩ .f32 :=
  shapeCast ⟨4, ![N, H, W, C4]⟩
    (concatenate ⟨5, ![N, H, W, C, 4]⟩ 4
      [⟨⟨5, ![N, H, W, C, 1]⟩, up (mulf hv (addf (addf (addf
          (shapeCast ⟨4, ![N, H, W, C]⟩ (extractStridedSlice ⟨6, ![N, H, 1, W, 1, C]⟩ ![0, 0, 0, 0, 0, 0] (shapeCast ⟨6, ![N, H, 2, W, 2, C]⟩ x hc1) hs00) hc2)
          (shapeCast ⟨4, ![N, H, W, C]⟩ (extractStridedSlice ⟨6, ![N, H, 1, W, 1, C]⟩ ![0, 0, 0, 0, 1, 0] (shapeCast ⟨6, ![N, H, 2, W, 2, C]⟩ x hc1) hs01) hc2))
          (shapeCast ⟨4, ![N, H, W, C]⟩ (extractStridedSlice ⟨6, ![N, H, 1, W, 1, C]⟩ ![0, 0, 1, 0, 0, 0] (shapeCast ⟨6, ![N, H, 2, W, 2, C]⟩ x hc1) hs10) hc2))
          (shapeCast ⟨4, ![N, H, W, C]⟩ (extractStridedSlice ⟨6, ![N, H, 1, W, 1, C]⟩ ![0, 0, 1, 0, 1, 0] (shapeCast ⟨6, ![N, H, 2, W, 2, C]⟩ x hc1) hs11) hc2)))⟩,
       ⟨⟨5, ![N, H, W, C, 1]⟩, up (mulf hv (subf (subf (addf
          (shapeCast ⟨4, ![N, H, W, C]⟩ (extractStridedSlice ⟨6, ![N, H, 1, W, 1, C]⟩ ![0, 0, 0, 0, 0, 0] (shapeCast ⟨6, ![N, H, 2, W, 2, C]⟩ x hc1) hs00) hc2)
          (shapeCast ⟨4, ![N, H, W, C]⟩ (extractStridedSlice ⟨6, ![N, H, 1, W, 1, C]⟩ ![0, 0, 0, 0, 1, 0] (shapeCast ⟨6, ![N, H, 2, W, 2, C]⟩ x hc1) hs01) hc2))
          (shapeCast ⟨4, ![N, H, W, C]⟩ (extractStridedSlice ⟨6, ![N, H, 1, W, 1, C]⟩ ![0, 0, 1, 0, 0, 0] (shapeCast ⟨6, ![N, H, 2, W, 2, C]⟩ x hc1) hs10) hc2))
          (shapeCast ⟨4, ![N, H, W, C]⟩ (extractStridedSlice ⟨6, ![N, H, 1, W, 1, C]⟩ ![0, 0, 1, 0, 1, 0] (shapeCast ⟨6, ![N, H, 2, W, 2, C]⟩ x hc1) hs11) hc2)))⟩,
       ⟨⟨5, ![N, H, W, C, 1]⟩, up (mulf hv (subf (addf (subf
          (shapeCast ⟨4, ![N, H, W, C]⟩ (extractStridedSlice ⟨6, ![N, H, 1, W, 1, C]⟩ ![0, 0, 0, 0, 0, 0] (shapeCast ⟨6, ![N, H, 2, W, 2, C]⟩ x hc1) hs00) hc2)
          (shapeCast ⟨4, ![N, H, W, C]⟩ (extractStridedSlice ⟨6, ![N, H, 1, W, 1, C]⟩ ![0, 0, 0, 0, 1, 0] (shapeCast ⟨6, ![N, H, 2, W, 2, C]⟩ x hc1) hs01) hc2))
          (shapeCast ⟨4, ![N, H, W, C]⟩ (extractStridedSlice ⟨6, ![N, H, 1, W, 1, C]⟩ ![0, 0, 1, 0, 0, 0] (shapeCast ⟨6, ![N, H, 2, W, 2, C]⟩ x hc1) hs10) hc2))
          (shapeCast ⟨4, ![N, H, W, C]⟩ (extractStridedSlice ⟨6, ![N, H, 1, W, 1, C]⟩ ![0, 0, 1, 0, 1, 0] (shapeCast ⟨6, ![N, H, 2, W, 2, C]⟩ x hc1) hs11) hc2)))⟩,
       ⟨⟨5, ![N, H, W, C, 1]⟩, up (mulf hv (addf (subf (subf
          (shapeCast ⟨4, ![N, H, W, C]⟩ (extractStridedSlice ⟨6, ![N, H, 1, W, 1, C]⟩ ![0, 0, 0, 0, 0, 0] (shapeCast ⟨6, ![N, H, 2, W, 2, C]⟩ x hc1) hs00) hc2)
          (shapeCast ⟨4, ![N, H, W, C]⟩ (extractStridedSlice ⟨6, ![N, H, 1, W, 1, C]⟩ ![0, 0, 0, 0, 1, 0] (shapeCast ⟨6, ![N, H, 2, W, 2, C]⟩ x hc1) hs01) hc2))
          (shapeCast ⟨4, ![N, H, W, C]⟩ (extractStridedSlice ⟨6, ![N, H, 1, W, 1, C]⟩ ![0, 0, 1, 0, 0, 0] (shapeCast ⟨6, ![N, H, 2, W, 2, C]⟩ x hc1) hs10) hc2))
          (shapeCast ⟨4, ![N, H, W, C]⟩ (extractStridedSlice ⟨6, ![N, H, 1, W, 1, C]⟩ ![0, 0, 1, 0, 1, 0] (shapeCast ⟨6, ![N, H, 2, W, 2, C]⟩ x hc1) hs11) hc2)))⟩]
      hcat) hc3

/-- The program's spelling, read at an index, is the transform there: the merging reshape names (q / 4, q % 4), the
    concatenation picks combination q % 4, its unit axis is dropped, the arithmetic is pointwise, and each corner is read
    at (2i + r, 2j + s). -/
theorem haarProg_apply (hH : H2 = 2 * H) (hW : W2 = 2 * W) (hC : C4 = C * 4)
    (hc1 : (⟨4, ![N, H2, W2, C]⟩ : Shape).ShapeCasts ⟨6, ![N, H, 2, W, 2, C]⟩)
    (hs00 : (⟨6, ![N, H, 2, W, 2, C]⟩ : Shape).Slices ![0, 0, 0, 0, 0, 0] ⟨6, ![N, H, 1, W, 1, C]⟩)
    (hs01 : (⟨6, ![N, H, 2, W, 2, C]⟩ : Shape).Slices ![0, 0, 0, 0, 1, 0] ⟨6, ![N, H, 1, W, 1, C]⟩)
    (hs10 : (⟨6, ![N, H, 2, W, 2, C]⟩ : Shape).Slices ![0, 0, 1, 0, 0, 0] ⟨6, ![N, H, 1, W, 1, C]⟩)
    (hs11 : (⟨6, ![N, H, 2, W, 2, C]⟩ : Shape).Slices ![0, 0, 1, 0, 1, 0] ⟨6, ![N, H, 1, W, 1, C]⟩)
    (hc2 : (⟨6, ![N, H, 1, W, 1, C]⟩ : Shape).ShapeCasts ⟨4, ![N, H, W, C]⟩)
    (hcat : Shape.Concatenates [(⟨5, ![N, H, W, C, 1]⟩ : Shape), ⟨5, ![N, H, W, C, 1]⟩, ⟨5, ![N, H, W, C, 1]⟩, ⟨5, ![N, H, W, C, 1]⟩]
      ⟨5, ![N, H, W, C, 4]⟩ 4)
    (hc3 : (⟨5, ![N, H, W, C, 4]⟩ : Shape).ShapeCasts ⟨4, ![N, H, W, C4]⟩)
    (h : F .f32) (hv : FVec F ⟨4, ![N, H, W, C]⟩ .f32) (hhv : ∀ p, hv p = h)
    (up : FVec F ⟨4, ![N, H, W, C]⟩ .f32 → FVec F ⟨5, ![N, H, W, C, 1]⟩ .f32)
    (hup : ∀ y (n : Fin N) (i : Fin H) (j : Fin W) (c : Fin C) (u : Fin 1), up y (ix5 n i j c u) = y (ix4 n i j c))
    (x : FVec F ⟨4, ![N, H2, W2, C]⟩ .f32) (n : Fin N) (i : Fin H) (j : Fin W) (q : Fin C4) :
    haarProg hc1 hs00 hs01 hs10 hs11 hc2 hcat hc3 hv up x (ix4 n i j q) = haarAt hH hW hC h x n i j q := by
  have hq : q.val / 4 < C := by have := q.isLt; omega
  have e00 := corner_apply hH hW x ![0, 0, 0, 0, 0, 0] 0 0 rfl rfl rfl rfl rfl rfl hc1 hs00 hc2 n i j ⟨q.val / 4, hq⟩
  have e01 := corner_apply hH hW x ![0, 0, 0, 0, 1, 0] 0 1 rfl rfl rfl rfl rfl rfl hc1 hs01 hc2 n i j ⟨q.val / 4, hq⟩
  have e10 := corner_apply hH hW x ![0, 0, 1, 0, 0, 0] 1 0 rfl rfl rfl rfl rfl rfl hc1 hs10 hc2 n i j ⟨q.val / 4, hq⟩
  have e11 := corner_apply hH hW x ![0, 0, 1, 0, 1, 0] 1 1 rfl rfl rfl rfl rfl rfl hc1 hs11 hc2 n i j ⟨q.val / 4, hq⟩
  unfold haarProg
  refine (interleave_apply hC _ hc3 n i j q).trans ?_
  refine (cat4_apply _ _ _ _ hcat n i j ⟨q.val / 4, hq⟩ ⟨q.val % 4, Nat.mod_lt _ (by decide)⟩).trans ?_
  unfold haarAt comb
  generalize (⟨q.val % 4, Nat.mod_lt _ (by decide)⟩ : Fin 4) = k
  match k with
  | ⟨0, _⟩ => show up _ _ = FloatOps.mulf _ _; rw [hup]; show FloatOps.mulf (hv _) (FloatOps.addf (FloatOps.addf (FloatOps.addf _ _) _) _) = _; rw [hhv, e00, e01, e10, e11]
  | ⟨1, _⟩ => show up _ _ = FloatOps.mulf _ _; rw [hup]; show FloatOps.mulf (hv _) (FloatOps.subf (FloatOps.subf (FloatOps.addf _ _) _) _) = _; rw [hhv, e00, e01, e10, e11]
  | ⟨2, _⟩ => show up _ _ = FloatOps.mulf _ _; rw [hup]; show FloatOps.mulf (hv _) (FloatOps.subf (FloatOps.addf (FloatOps.subf _ _) _) _) = _; rw [hhv, e00, e01, e10, e11]
  | ⟨3, _⟩ => show up _ _ = FloatOps.mulf _ _; rw [hup]; show FloatOps.mulf (hv _) (FloatOps.addf (FloatOps.subf (FloatOps.subf _ _) _) _) = _; rw [hhv, e00, e01, e10, e11]

end Value

end Cert.Haar

end
-- ==== Proof.KernelValue.lean ====
/-
  What the tiled kernel leaves in its output array, at the ideal or any other float instance.

  The kernel runs on a grid of 8 × 8 × 4 points. Point (b, hi, wi) is handed rows 64 hi … 64 hi + 63 and columns
  128 wi … 128 wi + 127 of image b, all 64 channels, and writes rows 32 hi … 32 hi + 31 and columns
  64 wi … 64 wi + 63 of output image b, all 256 channels. Its body is the 2×2 Haar step of that tile, spelt with
  a reshape, four corner slices, the four combinations, a concatenation and a reshape. A tile's patch (i, j) is
  the whole image's patch (32 hi + i, 64 wi + j), because 64 hi + 2 i + r = 2 (32 hi + i) + r and likewise on
  columns: so what a point writes is its block of the whole image's transform, the blocks tile the output, and
  the output array ends holding the transform of the input array.
-/
import proofs.«150662_j33887291965641_1_alg».proof.Proof.Gen.KernelIdeal.Value
import proofs.«150662_j33887291965641_1_alg».proof.Proof.Haar

noncomputable section

namespace Cert.KernelIdeal.HaarValue

open Cert.KernelIdeal Cert.KernelIdeal.Gen Idealize.ShloMosaic Idealize.ShloMosaic.TcCoe Idealize.SL.Sem
open Idealize.ShloMosaic.ValueIdx
open Idealize.ShloMosaic.Pipeline (Dat)
open Cert.Haar Cert.PatchLayout

variable {F : FTy → Type} [FloatOps F]

/-- The scale one half, as the program writes it. -/
abbrev half : F .f32 := Scalar.ofBits .f32 0x3F000000#32

/-- The body's stored value is the Haar step of the loaded tile, as a program spells it: the scale splat over the
    tile, the unit axis added by a reshape. -/
theorem pay_eq (v0 : Vec F S1x64x128x64 .f32) :
    k0_pay1 v0 = haarProg (N := 1) (H := 32) (W := 64) (C := 64) (H2 := 64) (W2 := 128) (C4 := 256)
      shapeCasts_S1x64x128x64_S1x32x2x64x2x64
      slices_S1x32x2x64x2x64_o0_0_0_0_0_0_S1x32x1x64x1x64 slices_S1x32x2x64x2x64_o0_0_0_0_1_0_S1x32x1x64x1x64
      slices_S1x32x2x64x2x64_o0_0_1_0_0_0_S1x32x1x64x1x64 slices_S1x32x2x64x2x64_o0_0_1_0_1_0_S1x32x1x64x1x64
      shapeCasts_S1x32x1x64x1x64_S1x32x64x64
      concatenates_S1x32x64x64x1_S1x32x64x64x1_S1x32x64x64x1_S1x32x64x64x1_S1x32x64x64x4_d4
      shapeCasts_S1x32x64x64x4_S1x32x64x256
      (broadcast S1x32x64x64 half) (fun y => shapeCast S1x32x64x64x1 y shapeCasts_S1x32x64x64_S1x32x64x64x1) v0 := rfl

/-- The stored value at tile position (i, j) and output channel q: combination q % 4 of channel q / 4's patch (i, j)
    of the tile. -/
theorem pay_apply (v0 : Vec F S1x64x128x64 .f32) (u : Fin 1) (i : Fin 32) (j : Fin 64) (q : Fin 256) :
    k0_pay1 v0 (ix4 u i j q)
      = haarAt (N := 1) (H := 32) (W := 64) (C := 64) (H2 := 64) (W2 := 128) (C4 := 256) rfl rfl rfl half v0 u i j q := by
  rw [pay_eq]
  exact haarProg_apply rfl rfl rfl _ _ _ _ _ _ _ _ half _ (fun _ => rfl) _
    (fun y n i j c u => addUnit_apply y _ n i j c u) v0 u i j q

/-- A tile against the whole image. If the tile x0 is rows 64 hi …, columns 128 wi … of image b of X, then the tile's
    transform at y is X's transform at the output index o that lies 32 hi rows and 64 wi columns further on in image b:
    each corner 2 i + r of the tile is corner 2 (32 hi + i) + r of the image. -/
theorem block_eq (x0 : Vec F S1x64x128x64 .f32) (X : Vec F S8x512x512x64 .f32) (b hi : Fin 8) (wi : Fin 4)
    (hx : ∀ (u : Fin 1) (r : Fin 64) (s : Fin 128) (c : Fin 64),
      x0 (ix4 u r s c) = X (ix4 b ⟨64 * hi.val + r.val, by omega⟩ ⟨128 * wi.val + s.val, by omega⟩ c))
    (y : S1x32x64x256.Idx) (o : S8x256x256x256.Idx)
    (ho0 : (o 0).val = b.val) (ho1 : (o 1).val = 32 * hi.val + (y 1).val) (ho2 : (o 2).val = 64 * wi.val + (y 2).val)
    (ho3 : (o 3).val = (y 3).val) :
    k0_pay1 x0 y = haar (N := 8) (H := 256) (W := 256) (C := 64) (H2 := 512) (W2 := 512) (C4 := 256) rfl rfl rfl half X o := by
  obtain ⟨u, i, j, q, rfl⟩ : ∃ (u : Fin 1) (i : Fin 32) (j : Fin 64) (q : Fin 256), y = ix4 u i j q :=
    ⟨y 0, y 1, y 2, y 3, eq_ix4 y⟩
  have ho1' : (o 1).val = 32 * hi.val + i.val := ho1
  have ho2' : (o 2).val = 64 * wi.val + j.val := ho2
  have ho3' : (o 3).val = q.val := ho3
  have hq : q.val / 4 < 64 := by have := q.isLt; omega
  have hoq : (o 3).val / 4 < 64 := by rw [ho3']; exact hq
  have hk : (⟨q.val % 4, Nat.mod_lt _ (by decide)⟩ : Fin 4) = ⟨(o 3).val % 4, Nat.mod_lt _ (by decide)⟩ :=
    Fin.ext (by show q.val % 4 = (o 3).val % 4; rw [ho3'])
  have e : ∀ r s : Fin 2,
      x0 (ix4 u (twice (H := 32) (H2 := 64) rfl r i) (twice (H := 64) (H2 := 128) rfl s j) ⟨q.val / 4, hq⟩)
        = X (ix4 (o 0) (twice (H := 256) (H2 := 512) rfl r (o 1)) (twice (H := 256) (H2 := 512) rfl s (o 2)) ⟨(o 3).val / 4, hoq⟩) := by
    intro r s
    rw [hx]
    refine congrArg X ?_
    funext a
    apply Fin.ext
    have hr := r.isLt
    have hs := s.isLt
    match a with
    | ⟨0, _⟩ => show b.val = (o 0).val; omega
    | ⟨1, _⟩ => show 64 * hi.val + (2 * i.val + r.val) = 2 * (o 1).val + r.val; omega
    | ⟨2, _⟩ => show 128 * wi.val + (2 * j.val + s.val) = 2 * (o 2).val + s.val; omega
    | ⟨3, _⟩ => show q.val / 4 = (o 3).val / 4; rw [ho3']
  rw [pay_apply]
  show comb half (x0 _) (x0 _) (x0 _) (x0 _) _ = comb half (X _) (X _) (X _) (X _) _
  rw [e 0 0, e 0 1, e 1 0, e 1 1, hk]

variable (m : (ℓ : Loc nD τ sig) → Buf (Elt F) ℓ) (ρ : Dev nD → PrngReg)

theorem hz : (![0, 0, 0, 0] : Fin 4 → Nat) = fun _ => 0 := funext fun a => by fin_cases a <;> rfl

/-- The two windows move together over the grid: the same image and the same tile row and column, channels whole. -/
theorem idx_facts : ∀ t : Fin cfg0.N,
    win0_0.index t (0 : Fin 4) = win0_1.index t (0 : Fin 4) ∧ win0_0.index t (1 : Fin 4) = win0_1.index t (1 : Fin 4)
    ∧ win0_0.index t (2 : Fin 4) = win0_1.index t (2 : Fin 4) ∧ win0_0.index t (3 : Fin 4) = 0 ∧ win0_1.index t (3 : Fin 4) = 0
    ∧ win0_1.index t (0 : Fin 4) < 8 ∧ win0_1.index t (1 : Fin 4) < 8 ∧ win0_1.index t (2 : Fin 4) < 4 :=
  (by decide +kernel : ∀ t : Fin grid0.N, _)

/-- Every (image, tile row, tile column) is some point's. -/
theorem idx_onto : ∀ (q0 q1 : Fin 8) (q2 : Fin 4), ∃ t : Fin cfg0.N, win0_1.index t = ![q0.val, q1.val, q2.val, 0] :=
  (by decide +kernel : ∀ (q0 q1 : Fin 8) (q2 : Fin 4), ∃ t : Fin grid0.N, win0_1.index t = ![q0.val, q1.val, q2.val, 0])

/-- What point t writes back is its block of the transform of the input array as the region finds it. -/
theorem flushed_eq (c : Dev nD) (t : Fin cfg0.N) :
    (dats m 0 c).flushed 1 t = ((cfg0.win 1).blk t).view.read (Elt F)
      (haar (N := 8) (H := 256) (W := 256) (C := 64) (H2 := 512) (W2 := 512) (C4 := 256) rfl rfl rfl half (V m c main_arg0)) := by
  rw [Cert.KernelIdeal.Value.flushed1]
  unfold out0_1
  rw [View.canon_unit_zero hz]
  simp only [View.ld_unit_zero (S := S1x64x128x64) hz]
  obtain ⟨e0, e1, e2, e3, e4, b0, b1, b2⟩ := idx_facts t
  funext y
  show k0_pay1 (iblk m c 0 t) y = haar (N := 8) (H := 256) (W := 256) (C := 64) (H2 := 512) (W2 := 512) (C4 := 256) rfl rfl rfl half
    (V m c main_arg0) (((cfg0.win 1).blk t).view.emb y)
  have hy0 : (y 0).val < 1 := (y 0).isLt
  refine block_eq (iblk m c 0 t) (V m c main_arg0) ⟨win0_1.index t (0 : Fin 4), b0⟩ ⟨win0_1.index t (1 : Fin 4), b1⟩
    ⟨win0_1.index t (2 : Fin 4), b2⟩ ?_ y (((cfg0.win 1).blk t).view.emb y) ?_ ?_ ?_ ?_
  · intro u r s ch
    have hu : u.val < 1 := u.isLt
    show V m c main_arg0 (((cfg0.win 0).blk t).view.emb (ix4 u r s ch)) = _
    refine congrArg (V m c main_arg0) ?_
    funext a
    apply Fin.ext
    match a with
    | ⟨0, _⟩ => show win0_0.index t (0 : Fin 4) * 1 + 1 * u.val = win0_1.index t (0 : Fin 4); omega
    | ⟨1, _⟩ => show win0_0.index t (1 : Fin 4) * 64 + 1 * r.val = 64 * win0_1.index t (1 : Fin 4) + r.val; omega
    | ⟨2, _⟩ => show win0_0.index t (2 : Fin 4) * 128 + 1 * s.val = 128 * win0_1.index t (2 : Fin 4) + s.val; omega
    | ⟨3, _⟩ => show win0_0.index t (3 : Fin 4) * 64 + 1 * ch.val = ch.val; omega
  · show win0_1.index t (0 : Fin 4) * 1 + 1 * (y 0).val = win0_1.index t (0 : Fin 4); omega
  · show win0_1.index t (1 : Fin 4) * 32 + 1 * (y 1).val = 32 * win0_1.index t (1 : Fin 4) + (y 1).val; omega
  · show win0_1.index t (2 : Fin 4) * 64 + 1 * (y 2).val = 64 * win0_1.index t (2 : Fin 4) + (y 2).val; omega
  · show win0_1.index t (3 : Fin 4) * 256 + 1 * (y 3).val = (y 3).val; omega

/-- An output index is in point t's block iff each coordinate is in the block's range on its axis. -/
theorem mem_blk (t : Fin cfg0.N) (i : S8x256x256x256.Idx) :
    i ∈ ((cfg0.win 1).blk t).view.set ↔ ∀ a : Fin 4, win0_1.index t a * S1x32x64x256.size a ≤ (i a).val
      ∧ (i a).val < win0_1.index t a * S1x32x64x256.size a + S1x32x64x256.size a := by
  show i ∈ ((View.whole main_v0).slice (win0_1.rect t)).set ↔ _
  rw [View.set_slice_whole, Rect.mem_set_unit]
  exact Iff.rfl

/-- The blocks tile the output: index (n, r, s, q) is in the block of the point at image n, tile row r / 32,
    tile column s / 64. -/
theorem cover (i : S8x256x256x256.Idx) :
    ∃ t : Fin cfg0.N, (cfg0.win 1).flush t = true ∧ i ∈ ((cfg0.win 1).blk t).view.set := by
  have hi0 : (i 0).val < 8 := (i 0).isLt
  have hi1 : (i 1).val < 256 := (i 1).isLt
  have hi2 : (i 2).val < 256 := (i 2).isLt
  have hi3 : (i 3).val < 256 := (i 3).isLt
  obtain ⟨t, ht⟩ := idx_onto ⟨(i 0).val, hi0⟩ ⟨(i 1).val / 32, by omega⟩ ⟨(i 2).val / 64, by omega⟩
  have q0 : win0_1.index t (0 : Fin 4) = (i 0).val := congrFun ht 0
  have q1 : win0_1.index t (1 : Fin 4) = (i 1).val / 32 := congrFun ht 1
  have q2 : win0_1.index t (2 : Fin 4) = (i 2).val / 64 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 32 ≤ (i 1).val ∧ (i 1).val < win0_1.index t (1 : Fin 4) * 32 + 32; omega
  | ⟨2, _⟩ => show win0_1.index t (2 : Fin 4) * 64 ≤ (i 2).val ∧ (i 2).val < win0_1.index t (2 : Fin 4) * 64 + 64; omega
  | ⟨3, _⟩ => show win0_1.index t (3 : Fin 4) * 256 ≤ (i 3).val ∧ (i 3).val < win0_1.index t (3 : Fin 4) * 256 + 256; omega

/-- The output array after the run is the transform of the input array. -/
theorem final (c : Dev nD) :
    (dats m 0 c).arrAt 1 cfg0.N
      = haar (N := 8) (H := 256) (W := 256) (C := 64) (H2 := 512) (W2 := 512) (C4 := 256) rfl rfl rfl half
          (m ((c : Thread nD τ).loc main_arg0)) :=
  (dats m 0 c).arrAt_eq_of_cover 1
    (haar (N := 8) (H := 256) (W := 256) (C := 64) (H2 := 512) (W2 := 512) (C4 := 256) rfl rfl rfl half (V m c main_arg0))
    (fun t _ => flushed_eq m c t) cover

/-- Every weakly fair execution of the kernel program ends with the result array at the transform of the argument
    array, the argument unchanged. -/
theorem run : θ_run defs (onTc (τ := τ) (main (F := F))) ⟨m, fun _ => 0, ρ⟩ fun r => ∀ c : Dev nD,
      r.2.mem ((c : Thread nD τ).loc main_v0)
          = haar (N := 8) (H := 256) (W := 256) (C := 64) (H2 := 512) (W2 := 512) (C4 := 256) rfl rfl rfl half
              (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.HaarValue

end
-- ==== Proof.RefValue.lean ====
/-
  What the reference computes: the 2×2 Haar step of the whole array.

  The reference reshapes the array [8, 512, 512, 64] to [8, 256, 2, 256, 2, 64], takes the four corners of every
  patch as unit slices, forms the four combinations with the scale one half broadcast from a scalar, gives each a
  trailing unit axis by a broadcast along the four leading axes, concatenates them along that axis and merges it
  into the channels. That is the program-shaped spelling of the transform, with nothing else around it.
-/
import proofs.«150662_j33887291965641_1_alg».proof.Proof.Gen.ReferenceIdeal.Run
import proofs.«150662_j33887291965641_1_alg».proof.Proof.Haar

noncomputable section

namespace Cert.ReferenceIdeal.HaarValue

open Cert.ReferenceIdeal Cert.ReferenceIdeal.Gen Idealize.ShloMosaic Idealize.ShloMosaic.TcCoe Idealize.SL.Sem
open Idealize.ShloMosaic.ValueIdx
open Cert.Haar Cert.PatchLayout

variable {F : FTy → Type} [FloatOps F]

/-- The scale one half, as the program writes it. -/
abbrev half : F .f32 := FloatOps.ofBits .f32 0x3F000000#32

/-- The run's result term is the transform of the argument array: the scale a scalar constant broadcast over the
    array, the unit axis added by a broadcast. -/
theorem res_eq (m : (ℓ : Loc nD τ sig) → Buf (Elt F) ℓ) (c : Dev nD) :
    Cert.ReferenceIdeal.Value.res_main_v34 m c
      = haar (N := 8) (H := 256) (W := 256) (C := 64) (H2 := 512) (W2 := 512) (C4 := 256) rfl rfl rfl half
          (m ((c.tc : Thread nD τ).loc main_arg0)) := by
  funext o
  obtain ⟨n, i, j, q, rfl⟩ : ∃ (n : Fin 8) (i j q : Fin 256), o = ix4 n i j q := ⟨o 0, o 1, o 2, o 3, eq_ix4 o⟩
  unfold Cert.ReferenceIdeal.Value.res_main_v34
  exact haarProg_apply (N := 8) (H := 256) (W := 256) (C := 64) (H2 := 512) (W2 := 512) (C4 := 256) rfl rfl rfl
    shapeCasts_S8x512x512x64_S8x256x2x256x2x64
    slices_S8x256x2x256x2x64_S8x256x1x256x1x64_0_0_0_0_0_0 slices_S8x256x2x256x2x64_S8x256x1x256x1x64_0_0_0_0_1_0
    slices_S8x256x2x256x2x64_S8x256x1x256x1x64_0_0_1_0_0_0 slices_S8x256x2x256x2x64_S8x256x1x256x1x64_0_0_1_0_1_0
    shapeCasts_S8x256x1x256x1x64_S8x256x256x64
    concatenates_S8x256x256x64x1_S8x256x256x64x1_S8x256x256x64x1_S8x256x256x64x1_S8x256x256x64x4_d4
    shapeCasts_S8x256x256x64x4_S8x256x256x256
    half (broadcastInDim S8x256x256x64 ![] bcast_S_S8x256x256x64 (constant S_ .f32 0x3F000000#32)) (fun _ => rfl)
    (broadcastInDim S8x256x256x64x1 ![0, 1, 2, 3] bcast_S8x256x256x64_S8x256x256x64x1_0_1_2_3)
    (fun y n i j c u => bcastUnit_apply y _ n i j c u)
    (m ((c.tc : Thread nD τ).loc main_arg0)) n i j q

end Cert.ReferenceIdeal.HaarValue

end
-- ==== Proof.lean ====
/-
  The kernel and its reference compute the same array over the extended reals: the 2×2 Haar analysis step of an
  array [8, 512, 512, 64], channels last. For every patch (a b; c d) of every channel both form, in this order
  and with the same scale one half, ½(((a + b) + c) + d), ½(((a + b) − c) − d), ½(((a − b) + c) − d),
  ½(((a − b) − c) + d), and interleave the four into four times as many channels. The reference does it on the
  whole array, the kernel tile by tile on a grid; a tile's patches are the whole array's patches, so the kernel's
  output array and the reference's result are one function of the input (Proof/Haar.lean states it, Proof/KernelValue.lean
  and Proof/RefValue.lean show that each program computes it). Nothing of the arithmetic is rearranged, so no input is
  asked to be finite. The three frames are the generated frame certificates and the reference's generated run; the
  kernel's idealization rewrote nothing, so there is nothing to preserve.
-/
import proofs.«150662_j33887291965641_1_alg».proof.Defs
import proofs.«150662_j33887291965641_1_alg».proof.Proof.Gen.Kernel
import proofs.«150662_j33887291965641_1_alg».proof.Proof.Gen.Kernel.Skeleton
import proofs.«150662_j33887291965641_1_alg».proof.Proof.Gen.Kernel.Launch
import proofs.«150662_j33887291965641_1_alg».proof.Proof.Gen.Kernel.Points
import proofs.«150662_j33887291965641_1_alg».proof.Proof.Gen.Kernel.Frame
import proofs.«150662_j33887291965641_1_alg».proof.Proof.Gen.KernelIdeal
import proofs.«150662_j33887291965641_1_alg».proof.Proof.Gen.KernelIdeal.Skeleton
import proofs.«150662_j33887291965641_1_alg».proof.Proof.Gen.KernelIdeal.Launch
import proofs.«150662_j33887291965641_1_alg».proof.Proof.Gen.KernelIdeal.Points
import proofs.«150662_j33887291965641_1_alg».proof.Proof.Gen.KernelIdeal.Frame
import proofs.«150662_j33887291965641_1_alg».proof.Proof.Gen.KernelIdeal.Value
import proofs.«150662_j33887291965641_1_alg».proof.Proof.Gen.ReferenceIdeal
import proofs.«150662_j33887291965641_1_alg».proof.Proof.Gen.ReferenceIdeal.Run
import proofs.«150662_j33887291965641_1_alg».proof.Proof.Gen.Pre_finite_inputs
import proofs.«150662_j33887291965641_1_alg».proof.Proof.LibPatchLayout
import proofs.«150662_j33887291965641_1_alg».proof.Proof.Haar
import proofs.«150662_j33887291965641_1_alg».proof.Proof.KernelValue
import proofs.«150662_j33887291965641_1_alg».proof.Proof.RefValue
import Idealize.ShloMosaic.Adequacy
import Idealize.ShloMosaic.Init

noncomputable section

namespace Cert.Proof

open Idealize.ShloMosaic Idealize.SL.Sem

/-- The kernel as printed runs and leaves its argument alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its argument alone: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From inputs that agree, both programs end with the Haar step of that input in their result arrays. -/
theorem algebraic : Cert.algebraic_KernelIdeal_ReferenceIdeal := by
  intro m ρ m' ρ' _ hagree
  refine ⟨_, Cert.KernelIdeal.HaarValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.HaarValue.res_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
